-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S100x2048 : Shape := ⟨2, ![100, 2048]⟩
abbrev S32x2048 : Shape := ⟨2, ![32, 2048]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S100x2048 : S_.BroadcastsInDim S100x2048 (![] : Fin 0 → Fin S100x2048.rank)
  reducesTo_S100x2048_S_d0_1 : S100x2048.ReducesTo [0, 1] S_
  bcast_S_S32x2048 : S_.BroadcastsInDim S32x2048 (![] : Fin 0 → Fin S32x2048.rank)
  reducesTo_S32x2048_S_d0_1 : S32x2048.ReducesTo [0, 1] S_

variable [Facts]

def fn {F : FTy → Type} [FloatOps F] (main_arg0 : FVec F S4096x32 .f32) (main_arg1 : FVec F S100x2048 .f32) (main_arg2 : FVec F S32x2048 .f32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S100x2048 .f32 := Host.absf main_arg1
  let main_cst_0 : FVec F S_ .f32 := constant S_ .f32 0x7F800000#32
  let main_v5 : FVec F S100x2048 .f32 := broadcastInDim S100x2048 ![] bcast_S_S100x2048 main_cst_0
  let main_v6 : IVec S100x2048 1 := cmpf .olt main_v4 main_v5
  let main_c_1 : IVec S_ 1 := constantI S_ 1 1#1
  let main_v7 : IVec S_ 1 := (fun x v => Host.reduce IntOp.andi x v reducesTo_S100x2048_S_d0_1 h_S_) main_v6 main_c_1
  let main_v8 : IVec S_ 1 := andi main_v3 main_v7
  let main_v9 : FVec F S32x2048 .f32 := Host.absf main_arg2
  let main_cst_2 : FVec F S_ .f32 := constant S_ .f32 0x7F800000#32
  let main_v10 : FVec F S32x2048 .f32 := broadcastInDim S32x2048 ![] bcast_S_S32x2048 main_cst_2
  let main_v11 : IVec S32x2048 1 := cmpf .olt main_v9 main_v10
  let main_c_3 : IVec S_ 1 := constantI S_ 1 1#1
  let main_v12 : IVec S_ 1 := (fun x v => Host.reduce IntOp.andi x v reducesTo_S32x2048_S_d0_1 h_S_) main_v11 main_c_3
  let main_v13 : IVec S_ 1 := andi main_v8 main_v12
  main_v13
-- ==== Kernel.lean ====
abbrev S4096x32 : Shape := ⟨2, ![4096, 32]⟩
abbrev S100x2048 : Shape := ⟨2, ![100, 2048]⟩
abbrev S32x2048 : Shape := ⟨2, ![32, 2048]⟩
abbrev S_ : Shape := ⟨0, ![]⟩
abbrev S32 : Shape := ⟨1, ![32]⟩
abbrev S1x32 : Shape := ⟨2, ![1, 32]⟩
abbrev S4096x2048 : Shape := ⟨2, ![4096, 2048]⟩
abbrev S1024x32 : Shape := ⟨2, ![1024, 32]⟩
abbrev S1024x2048 : Shape := ⟨2, ![1024, 2048]⟩
abbrev S1024x100 : Shape := ⟨2, ![1024, 100]⟩
abbrev S1024x1 : Shape := ⟨2, ![1024, 1]⟩
abbrev S1x2048 : Shape := ⟨2, ![1, 2048]⟩

abbrev nBuf : Space → Nat
  | .hbm => 32
  | .vmem => 6
  | .smem => 0
  | _ => 0

abbrev bufTy : (tb : Table) → Fin (tcTables nBuf tb) → BufTy
  | .hbm, ⟨0, _⟩ => ⟨S4096x32, .f32⟩
  | .hbm, ⟨1, _⟩ => ⟨S100x2048, .f32⟩
  | .hbm, ⟨2, _⟩ => ⟨S32x2048, .f32⟩
  | .hbm, ⟨3, _⟩ => ⟨S_, .f32⟩
  | .hbm, ⟨4, _⟩ => ⟨S32, .f32⟩
  | .hbm, ⟨5, _⟩ => ⟨S1x32, .f32⟩
  | .hbm, ⟨6, _⟩ => ⟨S_, .f32⟩
  | .hbm, ⟨7, _⟩ => ⟨S32, .f32⟩
  | .hbm, ⟨8, _⟩ => ⟨S1x32, .f32⟩
  | .hbm, ⟨9, _⟩ => ⟨S1x32, .f32⟩
  | .hbm, ⟨10, _⟩ => ⟨S_, .f32⟩
  | .hbm, ⟨11, _⟩ => ⟨S1x32, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S_, .f32⟩
  | .hbm, ⟨18, _⟩ => ⟨S4096x32, .f32⟩
  | .hbm, ⟨19, _⟩ => ⟨S4096x32, .f32⟩
  | .hbm, ⟨20, _⟩ => ⟨S4096x32, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S4096x32, .i32⟩
  | .hbm, ⟨25, _⟩ => ⟨S4096x32, .i32⟩
  | .hbm, ⟨26, _⟩ => ⟨S_, .i32⟩
  | .hbm, ⟨27, _⟩ => ⟨S4096x32, .i32⟩
  | .hbm, ⟨28, _⟩ => ⟨S4096x32, .i32⟩
  | .hbm, ⟨29, _⟩ => ⟨S100x2048, .bf16⟩
  | .hbm, ⟨30, _⟩ => ⟨S32x2048, .bf16⟩
  | .hbm, ⟨31, _⟩ => ⟨S4096x2048, .f32⟩
  | .local _ .vmem, ⟨0, _⟩ => ⟨S1024x32, .i32⟩
  | .local _ .vmem, ⟨1, _⟩ => ⟨S1024x32, .i32⟩
  | .local _ .vmem, ⟨2, _⟩ => ⟨S100x2048, .bf16⟩
  | .local _ .vmem, ⟨3, _⟩ => ⟨S32x2048, .bf16⟩
  | .local _ .vmem, ⟨4, _⟩ => ⟨S1024x2048, .f32⟩
  | .local _ .vmem, ⟨5, _⟩ => ⟨S1024x2048, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S4096x32_S32_d0 : S4096x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  iota_S1024x100_d1_w32 : S1024x100.Iotas .tc 32 [1]
  inb_S100x2048_S100x2048_0_0 : ∀ a, (![0, 0] : Fin 2 → Nat) a + S100x2048.size a ≤ S100x2048.size a
  h_S100x2048 : 0 < S100x2048.numel
  shapeCasts_S100x2048_S100x2048 : S100x2048.ShapeCasts S100x2048
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  slices_S1024x32_o0_0_S1024x1 : S1024x32.Slices ![0, 0] S1024x1
  broadcasts_S1024x1_S1024x100 : S1024x1.Broadcasts S1024x100
  natLt_1_32 : 1 < 32
  shapeCasts_S1024x2048_S1024x2048 : S1024x2048.ShapeCasts S1024x2048
  slices_S32x2048_o0_0_S1x2048 : S32x2048.Slices ![0, 0] S1x2048
  broadcasts_S1x2048_S1024x2048 : S1x2048.Broadcasts S1024x2048
  slices_S1024x32_o0_1_S1024x1 : S1024x32.Slices ![0, 1] S1024x1
  slices_S32x2048_o1_0_S1x2048 : S32x2048.Slices ![1, 0] S1x2048
  slices_S1024x32_o0_2_S1024x1 : S1024x32.Slices ![0, 2] S1024x1
  slices_S32x2048_o2_0_S1x2048 : S32x2048.Slices ![2, 0] S1x2048
  slices_S1024x32_o0_3_S1024x1 : S1024x32.Slices ![0, 3] S1024x1
  slices_S32x2048_o3_0_S1x2048 : S32x2048.Slices ![3, 0] S1x2048
  slices_S1024x32_o0_4_S1024x1 : S1024x32.Slices ![0, 4] S1024x1
  slices_S32x2048_o4_0_S1x2048 : S32x2048.Slices ![4, 0] S1x2048
  slices_S1024x32_o0_5_S1024x1 : S1024x32.Slices ![0, 5] S1024x1
  slices_S32x2048_o5_0_S1x2048 : S32x2048.Slices ![5, 0] S1x2048
  slices_S1024x32_o0_6_S1024x1 : S1024x32.Slices ![0, 6] S1024x1
  slices_S32x2048_o6_0_S1x2048 : S32x2048.Slices ![6, 0] S1x2048
  slices_S1024x32_o0_7_S1024x1 : S1024x32.Slices ![0, 7] S1024x1
  slices_S32x2048_o7_0_S1x2048 : S32x2048.Slices ![7, 0] S1x2048
  slices_S1024x32_o0_8_S1024x1 : S1024x32.Slices ![0, 8] S1024x1
  slices_S32x2048_o8_0_S1x2048 : S32x2048.Slices ![8, 0] S1x2048
  slices_S1024x32_o0_9_S1024x1 : S1024x32.Slices ![0, 9] S1024x1
  slices_S32x2048_o9_0_S1x2048 : S32x2048.Slices ![9, 0] S1x2048
  slices_S1024x32_o0_10_S1024x1 : S1024x32.Slices ![0, 10] S1024x1
  slices_S32x2048_o10_0_S1x2048 : S32x2048.Slices ![10, 0] S1x2048
  slices_S1024x32_o0_11_S1024x1 : S1024x32.Slices ![0, 11] S1024x1
  slices_S32x2048_o11_0_S1x2048 : S32x2048.Slices ![11, 0] S1x2048
  slices_S1024x32_o0_12_S1024x1 : S1024x32.Slices ![0, 12] S1024x1
  slices_S32x2048_o12_0_S1x2048 : S32x2048.Slices ![12, 0] S1x2048
  slices_S1024x32_o0_13_S1024x1 : S1024x32.Slices ![0, 13] S1024x1
  slices_S32x2048_o13_0_S1x2048 : S32x2048.Slices ![13, 0] S1x2048
  slices_S1024x32_o0_14_S1024x1 : S1024x32.Slices ![0, 14] S1024x1
  slices_S32x2048_o14_0_S1x2048 : S32x2048.Slices ![14, 0] S1x2048
  slices_S1024x32_o0_15_S1024x1 : S1024x32.Slices ![0, 15] S1024x1
  slices_S32x2048_o15_0_S1x2048 : S32x2048.Slices ![15, 0] S1x2048
  slices_S1024x32_o0_16_S1024x1 : S1024x32.Slices ![0, 16] S1024x1
  slices_S32x2048_o16_0_S1x2048 : S32x2048.Slices ![16, 0] S1x2048
  slices_S1024x32_o0_17_S1024x1 : S1024x32.Slices ![0, 17] S1024x1
  slices_S32x2048_o17_0_S1x2048 : S32x2048.Slices ![17, 0] S1x2048
  slices_S1024x32_o0_18_S1024x1 : S1024x32.Slices ![0, 18] S1024x1
  slices_S32x2048_o18_0_S1x2048 : S32x2048.Slices ![18, 0] S1x2048
  slices_S1024x32_o0_19_S1024x1 : S1024x32.Slices ![0, 19] S1024x1
  slices_S32x2048_o19_0_S1x2048 : S32x2048.Slices ![19, 0] S1x2048
  slices_S1024x32_o0_20_S1024x1 : S1024x32.Slices ![0, 20] S1024x1
  slices_S32x2048_o20_0_S1x2048 : S32x2048.Slices ![20, 0] S1x2048
  slices_S1024x32_o0_21_S1024x1 : S1024x32.Slices ![0, 21] S1024x1
  slices_S32x2048_o21_0_S1x2048 : S32x2048.Slices ![21, 0] S1x2048
  slices_S1024x32_o0_22_S1024x1 : S1024x32.Slices ![0, 22] S1024x1
  slices_S32x2048_o22_0_S1x2048 : S32x2048.Slices ![22, 0] S1x2048
  slices_S1024x32_o0_23_S1024x1 : S1024x32.Slices ![0, 23] S1024x1
  slices_S32x2048_o23_0_S1x2048 : S32x2048.Slices ![23, 0] S1x2048
  slices_S1024x32_o0_24_S1024x1 : S1024x32.Slices ![0, 24] S1024x1
  slices_S32x2048_o24_0_S1x2048 : S32x2048.Slices ![24, 0] S1x2048
  slices_S1024x32_o0_25_S1024x1 : S1024x32.Slices ![0, 25] S1024x1
  slices_S32x2048_o25_0_S1x2048 : S32x2048.Slices ![25, 0] S1x2048
  slices_S1024x32_o0_26_S1024x1 : S1024x32.Slices ![0, 26] S1024x1
  slices_S32x2048_o26_0_S1x2048 : S32x2048.Slices ![26, 0] S1x2048
  slices_S1024x32_o0_27_S1024x1 : S1024x32.Slices ![0, 27] S1024x1
  slices_S32x2048_o27_0_S1x2048 : S32x2048.Slices ![27, 0] S1x2048
  slices_S1024x32_o0_28_S1024x1 : S1024x32.Slices ![0, 28] S1024x1
  slices_S32x2048_o28_0_S1x2048 : S32x2048.Slices ![28, 0] S1x2048
  slices_S1024x32_o0_29_S1024x1 : S1024x32.Slices ![0, 29] S1024x1
  slices_S32x2048_o29_0_S1x2048 : S32x2048.Slices ![29, 0] S1x2048
  slices_S1024x32_o0_30_S1024x1 : S1024x32.Slices ![0, 30] S1024x1
  slices_S32x2048_o30_0_S1x2048 : S32x2048.Slices ![30, 0] S1x2048
  slices_S1024x32_o0_31_S1024x1 : S1024x32.Slices ![0, 31] S1024x1
  slices_S32x2048_o31_0_S1x2048 : S32x2048.Slices ![31, 0] S1x2048
  dot_S1024x100_S100x2048_S1024x2048_1_0_0_1_n_n_wf : DotDims.WF S1024x100 S100x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S4096x32.size a
  hwx0_0 : ∀ i : grid0.Coords, EltTy.bits .i32 = 32 ∨ (Rect.block (s := S4096x32) S1024x32.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x2048.size a ≤ S100x2048.size a
  hwx0_1 : ∀ i : grid0.Coords, EltTy.bits .bf16 = 32 ∨ (Rect.block (s := S100x2048) S100x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x2048.size a ≤ S32x2048.size a
  hwx0_2 : ∀ i : grid0.Coords, EltTy.bits .bf16 = 32 ∨ (Rect.block (s := S32x2048) S32x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x2048.size a
  hwx0_3 : ∀ i : grid0.Coords, EltTy.bits .f32 = 32 ∨ (Rect.block (s := S4096x2048) S1024x2048.size (cc0_transform_3 i) (hinb0_3 i)).WholeWords (EltTy.packing .f32)

variable [Facts₀]

def dot_S1024x100_S100x2048_S1024x2048_1_0_0_1_n_n : DotDims S1024x100 S100x2048 S1024x2048 where
  lhsContracting := [1]
  rhsContracting := [0]
  lhsNonContracting := [0]
  rhsNonContracting := [1]
  lhsBatch := []
  rhsBatch := []
  wf := dot_S1024x100_S100x2048_S1024x2048_1_0_0_1_n_n_wf

abbrev win0_0 : Pipeline.Window sig grid0 :=
  Pipeline.Window.ofSpec (Memref.whole main_v14) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S100x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S32x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x32 : Shape := ⟨2, ![4096, 32]⟩
abbrev S100x2048 : Shape := ⟨2, ![100, 2048]⟩
abbrev S32x2048 : Shape := ⟨2, ![32, 2048]⟩
abbrev S_ : Shape := ⟨0, ![]⟩
abbrev S32 : Shape := ⟨1, ![32]⟩
abbrev S1x32 : Shape := ⟨2, ![1, 32]⟩
abbrev S4096x32x1 : Shape := ⟨3, ![4096, 32, 1]⟩
abbrev S4096x32x2048 : Shape := ⟨3, ![4096, 32, 2048]⟩
abbrev S1x32x2048 : Shape := ⟨3, ![1, 32, 2048]⟩
abbrev S4096x2048 : Shape := ⟨2, ![4096, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S100x2048, .f32⟩
  | .hbm, ⟨2, _⟩ => ⟨S32x2048, .f32⟩
  | .hbm, ⟨3, _⟩ => ⟨S_, .f32⟩
  | .hbm, ⟨4, _⟩ => ⟨S32, .f32⟩
  | .hbm, ⟨5, _⟩ => ⟨S1x32, .f32⟩
  | .hbm, ⟨6, _⟩ => ⟨S_, .f32⟩
  | .hbm, ⟨7, _⟩ => ⟨S32, .f32⟩
  | .hbm, ⟨8, _⟩ => ⟨S1x32, .f32⟩
  | .hbm, ⟨9, _⟩ => ⟨S1x32, .f32⟩
  | .hbm, ⟨10, _⟩ => ⟨S_, .f32⟩
  | .hbm, ⟨11, _⟩ => ⟨S1x32, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S_, .f32⟩
  | .hbm, ⟨18, _⟩ => ⟨S4096x32, .f32⟩
  | .hbm, ⟨19, _⟩ => ⟨S4096x32, .f32⟩
  | .hbm, ⟨20, _⟩ => ⟨S4096x32, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S4096x32, .i32⟩
  | .hbm, ⟨25, _⟩ => ⟨S4096x32, .i32⟩
  | .hbm, ⟨26, _⟩ => ⟨S_, .i32⟩
  | .hbm, ⟨27, _⟩ => ⟨S4096x32, .i32⟩
  | .hbm, ⟨28, _⟩ => ⟨S4096x32, .i32⟩
  | .hbm, ⟨29, _⟩ => ⟨S_, .i32⟩
  | .hbm, ⟨30, _⟩ => ⟨S4096x32, .i32⟩
  | .hbm, ⟨31, _⟩ => ⟨S4096x32, .i1⟩
  | .hbm, ⟨32, _⟩ => ⟨S_, .i32⟩
  | .hbm, ⟨33, _⟩ => ⟨S4096x32, .i32⟩
  | .hbm, ⟨34, _⟩ => ⟨S4096x32, .i32⟩
  | .hbm, ⟨35, _⟩ => ⟨S4096x32, .i32⟩
  | .hbm, ⟨36, _⟩ => ⟨S4096x32x1, .i32⟩
  | .hbm, ⟨37, _⟩ => ⟨S4096x32x2048, .f32⟩
  | .hbm, ⟨38, _⟩ => ⟨S1x32x2048, .f32⟩
  | .hbm, ⟨39, _⟩ => ⟨S4096x32x2048, .f32⟩
  | .hbm, ⟨40, _⟩ => ⟨S4096x32x2048, .f32⟩
  | .hbm, ⟨41, _⟩ => ⟨S_, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .i1⟩
  | .hbm, ⟨46, _⟩ => ⟨S_, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_cst_9 : Ref sig .tc := ⟨.hbm, 47, rfl⟩
abbrev main_call1_v0 : Ref sig .tc := ⟨.hbm, 48, rfl⟩
abbrev main_call1_v1 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  reducesTo_S4096x32_S32_d0 : S4096x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S32x2048_S1x32x2048_1_2 : S32x2048.BroadcastsInDim S1x32x2048 (![1, 2] : Fin 2 → Fin S1x32x2048.rank)
  bcast_S1x32x2048_S4096x32x2048_0_1_2 : S1x32x2048.BroadcastsInDim S4096x32x2048 (![0, 1, 2] : Fin 3 → Fin S4096x32x2048.rank)
  reducesTo_S4096x32x2048_S4096x2048_d1 : S4096x32x2048.ReducesTo [1] S4096x2048
  bcast_S_S4096x2048 : S_.BroadcastsInDim S4096x2048 (![] : Fin 0 → Fin S4096x2048.rank)
  gather_S100x2048_S4096x32x1_S4096x32x2048_2_0_n_n_0_2_12048_wf : GatherDims.WF S100x2048 S4096x32x1 S4096x32x2048 [2] [0] [] [0] [] 2 ![1, 2048]

variable [Facts₀]

def gather_S100x2048_S4096x32x1_S4096x32x2048_2_0_n_n_0_2_12048 : GatherDims S100x2048 S4096x32x1 S4096x32x2048 where
  offsetDims := [2]
  collapsedSliceDims := [0]
  operandBatchingDims := []
  startIndicesBatchingDims := []
  startIndexMap := [0]
  indexVectorDim := 2
  sliceSizes := ![1, 2048]
  wf := gather_S100x2048_S4096x32x1_S4096x32x2048_2_0_n_n_0_2_12048_wf

class Facts : Prop extends Facts₀ where

variable [Facts]
-- ==== Proof.Spec.lean ====
/-
  The arithmetic both programs meet, on the extended reals, with no program in sight.

  The kernel gathers a table row by multiplying with a ONE-HOT row: for an integer word `j` the weights
  `w k = [j = k]` (an equality bit, widened, converted to a float) sum against any column `f` to the single
  entry `f j` — the other products are `0 · f k = 0`, which holds on the extended reals whatever `f k` is
  (`onehot_sum`). The kernel then adds the 32 channels one after the other into a zeroed accumulator; the
  reference adds them in one sum from a zero initial value. Addition of extended reals is commutative and
  associative, so the left-nested chain is that sum (`chain_eq_sum`). Neither step needs a finite input.
-/
import Idealize.ShloMosaic.PureOps.Ideal
import Idealize.ShloMosaic.Lib.ValueIdx
import Idealize.ShloMosaic.Lib.KernelVsHost
import Idealize.ShloMosaic.Lib.StableHlo.Predicate

noncomputable section

open scoped BigOperators

namespace Cert.Spec

open Idealize.ShloMosaic Idealize.ShloMosaic.ValueIdx

/-- The one-hot weight: the bit "a = b", widened to a word and converted signed, is 1 where the words agree and
    0 where they differ. -/
theorem hot_eq (a b : BitVec 32) :
    (FloatOps.sitofp (F := Ideal) .f32 ((IntOp.cmpi .eq a b).setWidth 32) : EReal)
      = if a = b then (1 : EReal) else 0 := by
  show (((((IntOp.cmpi .eq a b).setWidth 32).toInt : ℤ) : ℝ) : EReal) = _
  rw [toInt_setWidth_bit]
  by_cases h : a = b
  · rw [if_pos h, StableHlo.Predicate.cmpi_eq_iff.mpr h]; simp
  · rw [if_neg h, eq_zero_of_ne_one (mt StableHlo.Predicate.cmpi_eq_iff.mp h)]; simp

/-- A sum against one-hot weights selects: with `j` a word whose value is below `N`, the weights `[j = k]` over
    `k < N` pick out `f j`. The products off `j` are `0 · f k`, zero on the extended reals for every `f k`. -/
theorem onehot_sum {N : ℕ} (hN : N ≤ 2 ^ 32) (j : BitVec 32) (hj : j.toNat < N) (f : Fin N → EReal) :
    ∑ k : Fin N, (if j = BitVec.ofNat 32 k.val then (1 : EReal) else 0) * f k = f ⟨j.toNat, hj⟩ := by
  rw [Finset.sum_eq_single (⟨j.toNat, hj⟩ : Fin N)]
  · rw [if_pos (by simp), one_mul]
  · intro k _ hk
    rw [if_neg, zero_mul]
    intro h
    apply hk
    apply Fin.ext
    have e := congrArg BitVec.toNat h
    rw [BitVec.toNat_ofNat, Nat.mod_eq_of_lt (by have := k.isLt; omega)] at e
    exact e.symm
  · intro h; exact absurd (Finset.mem_univ _) h

/-- Adding terms one after the other into an accumulator that starts at `a` gives `a` plus their sum. -/
theorem foldl_add_eq_sum (T : ℕ → EReal) (a : EReal) :
    ∀ n : ℕ, Nat.rec a (fun c acc => acc + T c) n = a + ∑ c ∈ Finset.range n, T c
  | 0 => by simp
  | n + 1 => by
    show Nat.rec a (fun c acc => acc + T c) n + T n = _
    rw [foldl_add_eq_sum T a n, Finset.sum_range_succ, add_assoc]

/-- One more term added: the accumulator after `n + 1` terms is the accumulator after `n` plus term `n`. -/
theorem foldl_add_step (T : ℕ → EReal) (a : EReal) (n : ℕ) {A : EReal}
    (h : A = Nat.rec a (fun c acc => acc + T c) n) : A + T n = Nat.rec a (fun c acc => acc + T c) (n + 1) := by
  rw [h]

/-- The hard quantiser both programs end with: −1 where the value is below zero (an ORDERED comparison), +1
    elsewhere — zero maps to +1. The three float words are the same on both sides and are never evaluated. -/
def sgn (x : EReal) : EReal :=
  Scalar.select (FloatOps.cmpf (F := Ideal) (φ := .f32) .olt x (Scalar.ofBits (F := Ideal) .f32 0x00000000#32))
    (Scalar.ofBits (F := Ideal) .f32 0xBF800000#32) (Scalar.ofBits (F := Ideal) .f32 0x3F800000#32)

end Cert.Spec

end
-- ==== Proof.Channel.lean ====
/-
  One channel of the kernel's loop, read at one element of the block.

  For a channel `c` the body slices column `c` of the index block, lays it along 100 lanes, compares it with the
  lane number, and multiplies the resulting 0/1 matrix [1024, 100] with the value table [100, 2048] on the matrix
  unit into a zero accumulator; the product is scaled by row `c` of the position table laid down the rows, and
  added to what the output block held. At the ideal values, at block element (p, q), that is

      held (p, q) + (∑ k < 100, [idx (p, c) = k] · val (k, q)) · pos (c, q),

  the sum being the matrix product's contraction (one contracted axis, re-indexed to `Fin 100`) and the weight the
  one-hot weight of the specification. The channel number is a VARIABLE here: the 32 unrolled channels of the
  printed body are this one statement at `c = 0 … 31`, each with its own slice witnesses.
-/
import proofs.«177099_j38809324486986_1_alg».proof.Proof.Gen.KernelIdeal
import proofs.«177099_j38809324486986_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Channel

open Cert.KernelIdeal Cert.KernelIdeal.Gen Idealize.ShloMosaic Idealize.ShloMosaic.ValueIdx

/-! ## The matrix product's operand indices, axis by axis

The product contracts the left operand's axis 1 with the right operand's axis 0; the left operand's axis 0 is the
result's axis 0 and the right operand's axis 1 the result's axis 1. -/

theorem lhs_0 (i : S1024x2048.Idx) (q : dot_S1024x100_S100x2048_S1024x2048_1_0_0_1_n_n.contr.Idx) :
    (dot_S1024x100_S100x2048_S1024x2048_1_0_0_1_n_n.lhsIdx i q 0).val = (i 0).val := by
  unfold DotDims.lhsIdx
  rw [dif_neg (show ¬(0 : Fin S1024x100.rank) ∈ dot_S1024x100_S100x2048_S1024x2048_1_0_0_1_n_n.lhsBatch by decide), dif_pos (show (0 : Fin S1024x100.rank) ∈ dot_S1024x100_S100x2048_S1024x2048_1_0_0_1_n_n.lhsNonContracting by decide)]
  rfl
theorem lhs_1 (i : S1024x2048.Idx) (q : dot_S1024x100_S100x2048_S1024x2048_1_0_0_1_n_n.contr.Idx) :
    (dot_S1024x100_S100x2048_S1024x2048_1_0_0_1_n_n.lhsIdx i q 1).val = (q ⟨0, by decide⟩).val :=
  dot_S1024x100_S100x2048_S1024x2048_1_0_0_1_n_n.lhsIdx_val_of_single rfl i q
theorem rhs_0 (i : S1024x2048.Idx) (q : dot_S1024x100_S100x2048_S1024x2048_1_0_0_1_n_n.contr.Idx) :
    (dot_S1024x100_S100x2048_S1024x2048_1_0_0_1_n_n.rhsIdx i q 0).val = (q ⟨0, by decide⟩).val :=
  dot_S1024x100_S100x2048_S1024x2048_1_0_0_1_n_n.rhsIdx_val_of_single rfl i q
theorem rhs_1 (i : S1024x2048.Idx) (q : dot_S1024x100_S100x2048_S1024x2048_1_0_0_1_n_n.contr.Idx) :
    (dot_S1024x100_S100x2048_S1024x2048_1_0_0_1_n_n.rhsIdx i q 1).val = (i 1).val := by
  unfold DotDims.rhsIdx
  rw [dif_neg (show ¬(1 : Fin S100x2048.rank) ∈ dot_S1024x100_S100x2048_S1024x2048_1_0_0_1_n_n.rhsBatch by decide), dif_pos (show (1 : Fin S100x2048.rank) ∈ dot_S1024x100_S100x2048_S1024x2048_1_0_0_1_n_n.rhsNonContracting by decide)]
  rfl

/-! ## One channel's term, and the channel read at (p, q) -/

/-- Channel `c`'s contribution to output element (p, q) of a block: the one-hot row of `idx (p, c)` against column
    `q` of the value table, times the position table at (c, q). (Zero past the last channel, so that it is a function
    of a natural number and sums over a range.) -/
def term (v3 : IVec S1024x32 32) (v6 : FVec Ideal S100x2048 .bf16) (v9 : FVec Ideal S32x2048 .f32)
    (p : Fin 1024) (q : Fin 2048) (c : ℕ) : EReal :=
  if hc : c < 32 then
    (∑ k : Fin 100, (if v3 (ix2 p (⟨c, hc⟩ : Fin 32)) = BitVec.ofNat 32 k.val then (1 : EReal) else 0) * v6 (ix2 k q))
      * v9 (ix2 (⟨c, hc⟩ : Fin 32) q)
  else 0

/-- THE CHANNEL AT AN ELEMENT. What the body adds for channel `c` — its slice of the indices compared with the lane
    numbers, widened, converted, multiplied with the value table into a zero accumulator, scaled by its row of the
    position table — read at (p, q): what the block held there plus the channel's term. -/
theorem channel_apply (c : ℕ) (h1 : S1024x32.Slices ![0, c] S1024x1) (h2 : S32x2048.Slices ![c, 0] S1x2048)
    (hb1 : S1024x1.Broadcasts S1024x100) (hb2 : S1x2048.Broadcasts S1024x2048)
    (hlt : 1 < 32) (hbt : FTy.bits .bf16 < FTy.bits .f32) (hio : S1024x100.Iotas .tc 32 [1])
    (v3 : IVec S1024x32 32) (v6 : FVec Ideal S100x2048 .bf16) (v9 : FVec Ideal S32x2048 .f32) (v : FVec Ideal S1024x2048 .f32)
    (p : Fin 1024) (q : Fin 2048) :
    addf v
      (mulf (matmul dot_S1024x100_S100x2048_S1024x2048_1_0_0_1_n_n none
          (truncf .bf16 (sitofp .f32 (extui 32 (cmpi .eq (broadcastTo S1024x100 (extractStridedSlice S1024x1 ![0, c] v3 h1) hb1)
            (iota .tc S1024x100 32 [1] hio)) hlt)) hbt) v6 (constant S1024x2048 .f32 0x00000000#32))
        (broadcastTo S1024x2048 (extractStridedSlice S1x2048 ![c, 0] v9 h2) hb2)) (ix2 p q)
      = v (ix2 p q) + term v3 v6 v9 p q c := by
  have hc : c < 32 := by
    obtain ⟨hr, hs⟩ := h1
    have h : c + 1 ≤ 32 := hs 1
    omega
  -- the position table's row c, laid down the rows
  have hpos : broadcastTo S1024x2048 (extractStridedSlice S1x2048 ![c, 0] v9 h2) hb2 (ix2 p q) = v9 (ix2 (⟨c, hc⟩ : Fin 32) q) := by
    rw [broadcastTo_apply (extractStridedSlice S1x2048 ![c, 0] v9 h2) hb2 (ix2 p q) (ix2 (0 : Fin 1) q) (fun a => match a with
      | ⟨0, _⟩ => by show (0 : ℕ) = if (1 : ℕ) = 1 then 0 else _; rw [if_pos rfl]
      | ⟨1, _⟩ => by show q.val = if (2048 : ℕ) = 1 then 0 else q.val; rw [if_neg (by decide)])]
    exact extractStridedSlice_apply ![c, 0] v9 h2 (ix2 (0 : Fin 1) q) (ix2 (⟨c, hc⟩ : Fin 32) q) (fun a => match a with
      | ⟨0, _⟩ => by show c = c + 0; rfl
      | ⟨1, _⟩ => by show q.val = 0 + q.val; omega)
  -- the index column c, laid along the lanes
  have hidx : ∀ k : Fin 100, broadcastTo S1024x100 (extractStridedSlice S1024x1 ![0, c] v3 h1) hb1 (ix2 p k) = v3 (ix2 p (⟨c, hc⟩ : Fin 32)) := by
    intro k
    rw [broadcastTo_apply (extractStridedSlice S1024x1 ![0, c] v3 h1) hb1 (ix2 p k) (ix2 p (0 : Fin 1)) (fun a => match a with
      | ⟨0, _⟩ => by show p.val = if (1024 : ℕ) = 1 then 0 else p.val; rw [if_neg (by decide)]
      | ⟨1, _⟩ => by show (0 : ℕ) = if (1 : ℕ) = 1 then 0 else _; rw [if_pos rfl])]
    exact extractStridedSlice_apply ![0, c] v3 h1 (ix2 p (0 : Fin 1)) (ix2 p (⟨c, hc⟩ : Fin 32)) (fun a => match a with
      | ⟨0, _⟩ => by show p.val = 0 + p.val; omega
      | ⟨1, _⟩ => by show c = c + 0; rfl)
  unfold term
  rw [dif_pos hc, addf_apply, mulf_apply, hpos]
  simp only [matmul]
  rw [Ideal.matmul_constant_zero_apply, ← Equiv.sum_comp (contrEquiv1 dot_S1024x100_S100x2048_S1024x2048_1_0_0_1_n_n 100 rfl rfl).symm]
  refine congrArg (v (ix2 p q) + ·) (congrArg (· * v9 (ix2 (⟨c, hc⟩ : Fin 32) q)) (Finset.sum_congr rfl fun k _ => ?_))
  have hk := contrEquiv1_symm_val dot_S1024x100_S100x2048_S1024x2048_1_0_0_1_n_n 100 rfl rfl k
  have el : dot_S1024x100_S100x2048_S1024x2048_1_0_0_1_n_n.lhsIdx (ix2 p q) ((contrEquiv1 dot_S1024x100_S100x2048_S1024x2048_1_0_0_1_n_n 100 rfl rfl).symm k) = ix2 p k := funext fun a => Fin.ext (by
    match a with
    | ⟨0, _⟩ => exact lhs_0 _ _
    | ⟨1, _⟩ => exact (lhs_1 _ _).trans hk)
  have er : dot_S1024x100_S100x2048_S1024x2048_1_0_0_1_n_n.rhsIdx (ix2 p q) ((contrEquiv1 dot_S1024x100_S100x2048_S1024x2048_1_0_0_1_n_n 100 rfl rfl).symm k) = ix2 k q := funext fun a => Fin.ext (by
    match a with
    | ⟨0, _⟩ => exact (rhs_0 _ _).trans hk
    | ⟨1, _⟩ => exact rhs_1 _ _)
  rw [el, er]
  refine congrArg (· * v6 (ix2 k q)) ?_
  show (FloatOps.sitofp (F := Ideal) .f32 ((IntOp.cmpi .eq (broadcastTo S1024x100 (extractStridedSlice S1024x1 ![0, c] v3 h1) hb1 (ix2 p k))
      (iota .tc S1024x100 32 [1] hio (ix2 p k))).setWidth 32) : EReal) = _
  rw [hidx k, iota_single_apply, Cert.Spec.hot_eq]

end Cert.KernelIdeal.Channel

end
-- ==== Proof.Body.lean ====
/-
  What the kernel body leaves in its output block, at one element.

  The body zeroes the output block, then for each of the 32 channels loads the block back, adds the channel's
  product and stores it, and finally loads it once more and stores its sign. Every store and every load goes
  through the whole block, so each load reads exactly what the store before it wrote: the block's final contents
  are one pure expression, the quantiser applied to a left-nested chain of 32 additions starting from zero. Read at
  element (p, q), each link of the chain is "what was there, plus the channel's term" (the channel lemma), and the
  chain is the sum of the 32 terms.
-/
import proofs.«177099_j38809324486986_1_alg».proof.Proof.Gen.KernelIdeal.Value
import proofs.«177099_j38809324486986_1_alg».proof.Proof.Channel

set_option maxRecDepth 65536

noncomputable section

open scoped BigOperators

namespace Cert.KernelIdeal.Body

open Cert.KernelIdeal Cert.KernelIdeal.Gen Idealize.ShloMosaic Idealize.ShloMosaic.TcCoe Idealize.ShloMosaic.Tactic
open Idealize.SL.Sem Idealize.ShloMosaic.ValueIdx

theorem hz2 : (![0, 0] : Fin 2 → Nat) = fun _ => 0 := funext fun a => by fin_cases a <;> rfl

/-- The position table as the body uses it: its bf16 block widened to f32 (the identity on the ideal values). -/
abbrev posOf (x2 : Vec Ideal S32x2048 .bf16) : FVec Ideal S32x2048 .f32 := extf .f32 x2 bitsLt_bf16_f32

/-- THE BLOCK AT AN ELEMENT: on any staging memrefs holding the index block `x0`, the value table `x1` and the position
    table `x2`, the body leaves at (p, q) the sign of the sum over the 32 channels of the channel's term. -/
theorem out_apply (c : Dev nD) (i : grid0.Coords) (arg1 : Memref sig .tc .vmem S1024x32 .i32) (harg1 : arg1.IsWhole)
    (arg2 : Memref sig .tc .vmem S100x2048 .bf16) (harg2 : arg2.IsWhole) (arg3 : Memref sig .tc .vmem S32x2048 .bf16) (harg3 : arg3.IsWhole)
    (arg4 : Memref sig .tc .vmem S1024x2048 .f32) (harg4 : arg4.IsWhole)
    (x0 : Vec Ideal S1024x32 .i32) (x1 : Vec Ideal S100x2048 .bf16) (x2 : Vec Ideal S32x2048 .bf16) (p : Fin 1024) (q : Fin 2048) :
    out0_A_3 (F := Ideal) c i arg1 harg1 arg2 harg2 arg3 harg3 arg4 harg4 x0 x1 x2 (ix2 p q)
      = Cert.Spec.sgn (∑ cc ∈ Finset.range 32, Channel.term x0 x1 (posOf x2) p q cc) := by
  unfold out0_A_3
  rw [View.read_writes_eq_canon _ _ _ (cover0_A_3 c i arg1 harg1 arg2 harg2 arg3 harg3 arg4 harg4 x0 x1 x2)]
  unfold kernelRun0_A
  dsimp only
  rw [View.canon_cons_unit_zero (S := S1024x2048) hz2]
  sl_unfold_words
  simp only [View.readCov_cons_toLoadRect, View.readAt_eq_ld, harg1.read_unread, harg2.read_unread, harg3.read_unread,
    View.ld_unit_zero (S := S1024x32) hz2, View.ld_unit_zero (S := S100x2048) hz2, View.ld_unit_zero (S := S32x2048) hz2]
  unfold k0_pay1 k0_pay2 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37
  unfold k0_pay3 k0_pay4 k0_pay5
  simp only [shapeCast_self]
  -- the quantiser, applied to the accumulated block at (p, q)
  show Cert.Spec.sgn (_ : EReal) = Cert.Spec.sgn _
  refine congrArg Cert.Spec.sgn ?_
  -- the sum is the accumulator after 32 terms, from the zero the block was cleared to
  refine Eq.trans ?_ ((Cert.Spec.foldl_add_eq_sum (Channel.term x0 x1 (posOf x2) p q) (Ideal.ofBits .f32 0x00000000#32 : EReal) 32).trans
    (by rw [Ideal.ofBits_zero_f32, zero_add]))
  -- each link of the chain is what was there plus its channel's term: peel the 32 links, last channel first
  iterate 32
    refine (Channel.channel_apply _ _ _ _ _ _ _ _ _ _ _ _ _ _).trans
      (Cert.Spec.foldl_add_step (Channel.term x0 x1 (posOf x2) p q) (Ideal.ofBits .f32 0x00000000#32 : EReal) _ ?_)
  rfl

end Cert.KernelIdeal.Body

end
-- ==== Proof.IndexWord.lean ====
/-
  The level index as a 32-bit word, and which table row it names.

  Both programs clip the quantised feature to [0, 99] with signed `max` then `min`. Whatever word goes in, what comes
  out reads, signed, between 0 and 99 (`clip_range`). For such a word the reference's "negative index wraps"
  select keeps the word (`wrap_id`), the gather's signed clamp into [0, 99] is its unsigned value (`row_val`), and
  that value is below the table's 100 rows (`toNat_lt`).
-/
import Idealize.ShloMosaic.PureOps.Ideal
import Idealize.ShloMosaic.Lib.Affine

noncomputable section

namespace Cert.IndexWord

open Idealize.ShloMosaic

/-- The table row a start index names, as a gather reads it: the word read signed, clamped into [0, 99]. -/
def row (j : BitVec 32) : Fin 100 := ⟨min j.toInt.toNat 99, by omega⟩

theorem toInt_zero : (0#32 : BitVec 32).toInt = 0 := by decide
theorem toInt_99 : (99#32 : BitVec 32).toInt = 99 := by decide

/-- A word clipped by signed `max` with 0 then signed `min` with 99 reads, signed, in [0, 99]. -/
theorem clip_range (y : BitVec 32) :
    0 ≤ (IntOp.minsi 99#32 (IntOp.maxsi 0#32 y)).toInt ∧ (IntOp.minsi 99#32 (IntOp.maxsi 0#32 y)).toInt ≤ 99 := by
  unfold IntOp.minsi IntOp.maxsi
  split_ifs with h1 h2 h2
  · rw [toInt_99]; omega
  · rw [toInt_zero]; omega
  · rw [toInt_99]; omega
  · rw [BitVec.slt_iff_toInt_lt, toInt_zero] at h1
    rw [BitVec.slt_iff_toInt_lt, toInt_99] at h2
    omega

/-- A word that reads non-negative is its own unsigned value. -/
theorem toInt_eq_toNat (j : BitVec 32) (h0 : 0 ≤ j.toInt) : j.toInt = (j.toNat : ℤ) := by
  rw [BitVec.toInt_eq_toNat_cond] at h0 ⊢
  split_ifs at h0 ⊢ with h
  · rfl
  · have := j.isLt; omega

/-- In range, the unsigned value is below the table's 100 rows. -/
theorem toNat_lt (j : BitVec 32) (h0 : 0 ≤ j.toInt) (h1 : j.toInt ≤ 99) : j.toNat < 100 := by
  have := toInt_eq_toNat j h0; omega

/-- In range, the row the gather reads is the word's unsigned value. -/
theorem row_val (j : BitVec 32) (h0 : 0 ≤ j.toInt) (h1 : j.toInt ≤ 99) : row j = ⟨j.toNat, toNat_lt j h0 h1⟩ := by
  apply Fin.ext
  show min j.toInt.toNat 99 = j.toNat
  have := toInt_eq_toNat j h0; omega

/-- In range, jnp's "a negative index counts from the end" select keeps the word. -/
theorem wrap_id (j : BitVec 32) (h0 : 0 ≤ j.toInt) :
    Scalar.select (IntOp.cmpi .slt j 0#32) (IntOp.addi j 100#32) j = j := by
  unfold Scalar.select
  rw [if_neg]
  intro h
  have h' : IntOp.cmpi .slt j 0#32 = 1#1 := h
  rw [IntOp.cmpi_slt, toInt_zero] at h'
  omega

end Cert.IndexWord

end
-- ==== Proof.Point.lean ====
/-
  The 32 channel terms of one block element, summed, against the table row the level index names.

  With every level index in [0, 99], a channel's one-hot sum over the 100 table rows is the single row the index
  names (the specification's selection law): the kernel's "multiply by a one-hot matrix" IS the reference's gather.
  Stated over plain arrays and plain blocks, with the block-to-array reads as hypotheses, so that it can be used at a
  window's block without unfolding it.
-/
import proofs.«177099_j38809324486986_1_alg».proof.Proof.Channel
import proofs.«177099_j38809324486986_1_alg».proof.Proof.IndexWord

noncomputable section

open scoped BigOperators

namespace Cert.KernelIdeal.Point

open Cert.KernelIdeal Cert.KernelIdeal.Gen Idealize.ShloMosaic Idealize.ShloMosaic.ValueIdx

/-- Row `p` of an index block `b0` being row `n` of the index array `A0`, and column `q` of the table blocks `b1`, `b2`
    being column `q` of the tables `A1`, `A2`: the 32 channel terms at (p, q) sum to
    ∑ c, A1 (row (A0 (n, c)), q) · A2 (c, q). -/
theorem sum_terms (A0 : S4096x32.Idx → BitVec 32) (A1 : S100x2048.Idx → EReal) (A2 : S32x2048.Idx → EReal)
    (hr : ∀ i, 0 ≤ (A0 i).toInt ∧ (A0 i).toInt ≤ 99)
    (b0 : IVec S1024x32 32) (b1 : FVec Ideal S100x2048 .bf16) (b2 : FVec Ideal S32x2048 .f32)
    (p : Fin 1024) (q : Fin 2048) (n : Fin 4096)
    (h0 : ∀ cc : Fin 32, b0 (ix2 p cc) = A0 (ix2 n cc)) (h1 : ∀ k : Fin 100, b1 (ix2 k q) = A1 (ix2 k q))
    (h2 : ∀ cc : Fin 32, b2 (ix2 cc q) = A2 (ix2 cc q)) :
    ∑ cc ∈ Finset.range 32, Channel.term b0 b1 b2 p q cc
      = ∑ c : Fin 32, A1 (ix2 (Cert.IndexWord.row (A0 (ix2 n c))) q) * A2 (ix2 c q) := by
  rw [← Fin.sum_univ_eq_sum_range (fun cc => Channel.term b0 b1 b2 p q cc) 32]
  refine Finset.sum_congr rfl fun c _ => ?_
  unfold Channel.term
  rw [dif_pos c.isLt]
  have hc : (⟨c.val, c.isLt⟩ : Fin 32) = c := Fin.ext rfl
  rw [hc, h0 c, h2 c]
  obtain ⟨r0, r1⟩ := hr (ix2 n c)
  rw [Cert.Spec.onehot_sum (by norm_num) (A0 (ix2 n c)) (Cert.IndexWord.toNat_lt _ r0 r1) (fun k => b1 (ix2 k q)),
    Cert.IndexWord.row_val _ r0 r1, h1]

end Cert.KernelIdeal.Point

end
-- ==== Proof.RefRead.lean ====
/-
  The reference, read at one element of its result.

  The reference quantises each feature to a level index, clips it to [0, 99], gathers the value table's row at that
  index for every (sample, channel), multiplies by the position table's row of the channel, sums over the 32
  channels from a zero initial value, and takes the sign. At result element (n, d) that is

      sgn (∑ c < 32, val (row (idx (n, c)), d) · pos (c, d)),

  `idx` the clipped index array and `row` the gather's own reading of a start index (signed, clamped into the table).
  The gather reads rows of a rank-2 table, so it is read here by hand from the gather's definition; the clipped index
  is never negative, so jnp's negative-index wrap before the gather changes nothing.
-/
import proofs.«177099_j38809324486986_1_alg».proof.Proof.Gen.ReferenceIdeal.Read
import proofs.«177099_j38809324486986_1_alg».proof.Proof.Spec
import proofs.«177099_j38809324486986_1_alg».proof.Proof.IndexWord
import Idealize.ShloMosaic.Lib.ValueIdx

noncomputable section

open scoped BigOperators

namespace Cert.ReferenceIdeal.RefRead

open Cert.ReferenceIdeal Cert.ReferenceIdeal.Gen Cert.ReferenceIdeal.Read
open Idealize.ShloMosaic Idealize.ShloMosaic.TcCoe Idealize.ShloMosaic.ValueIdx

/-! ## The row gather at an element -/

/-- Result element (n, c, q) of the gather is the table at row `row (idx (n, c, 0))`, column `q`: operand axis 0 is
    collapsed and start-indexed (the clamped start index, no offset), operand axis 1 is the offset axis (the result's
    last coordinate, no start). -/
theorem gather_apply {α : Type} (x : S100x2048.Idx → α) (idx : IVec S4096x32x1 32) (n : Fin 4096) (c : Fin 32) (q : Fin 2048) :
    Host.gather gather_S100x2048_S4096x32x1_S4096x32x2048_2_0_n_n_0_2_12048 x idx (ix3 n c q) = x (ix2 (Cert.IndexWord.row (idx (ix3 n c (0 : Fin 1)))) q) := by
  have hb0 : (0 : Fin S100x2048.rank) ∉ gather_S100x2048_S4096x32x1_S4096x32x2048_2_0_n_n_0_2_12048.operandBatchingDims := by decide
  have hb1 : (1 : Fin S100x2048.rank) ∉ gather_S100x2048_S4096x32x1_S4096x32x2048_2_0_n_n_0_2_12048.operandBatchingDims := by decide
  have hk0 : (0 : Fin S100x2048.rank) ∉ gather_S100x2048_S4096x32x1_S4096x32x2048_2_0_n_n_0_2_12048.sKept := by decide
  have hk1 : (1 : Fin S100x2048.rank) ∈ gather_S100x2048_S4096x32x1_S4096x32x2048_2_0_n_n_0_2_12048.sKept := by decide
  have hm0 : (0 : Fin S100x2048.rank) ∈ gather_S100x2048_S4096x32x1_S4096x32x2048_2_0_n_n_0_2_12048.startIndexMap := by decide
  have hm1 : (1 : Fin S100x2048.rank) ∉ gather_S100x2048_S4096x32x1_S4096x32x2048_2_0_n_n_0_2_12048.startIndexMap := by decide
  have hsi : ∀ c', gather_S100x2048_S4096x32x1_S4096x32x2048_2_0_n_n_0_2_12048.siIdx (ix3 n c q) c' = ix3 n c (0 : Fin 1) := by
    intro c'; funext b
    match b with
    | ⟨0, _⟩ => exact Fin.ext rfl
    | ⟨1, _⟩ => exact Fin.ext rfl
    | ⟨2, h⟩ =>
      refine Fin.ext ?_
      have h1 : (gather_S100x2048_S4096x32x1_S4096x32x2048_2_0_n_n_0_2_12048.siIdx (ix3 n c q) c' ⟨2, h⟩).val < 1 := Fin.isLt _
      show _ = 0
      omega
  unfold Host.gather
  congr 1
  funext a
  apply Fin.ext
  match a with
  | ⟨0, _⟩ =>
    show gather_S100x2048_S4096x32x1_S4096x32x2048_2_0_n_n_0_2_12048.start (ix3 n c q) idx 0 + gather_S100x2048_S4096x32x1_S4096x32x2048_2_0_n_n_0_2_12048.batchCoord (ix3 n c q) 0 + gather_S100x2048_S4096x32x1_S4096x32x2048_2_0_n_n_0_2_12048.offCoord (ix3 n c q) 0
      = min (idx (ix3 n c (0 : Fin 1))).toInt.toNat 99
    rw [GatherDims.batchCoord_eq_zero _ _ _ hb0, GatherDims.offCoord_eq_zero _ _ _ hk0]
    unfold GatherDims.start
    rw [dif_pos hm0, hsi]
    rfl
  | ⟨1, _⟩ =>
    show gather_S100x2048_S4096x32x1_S4096x32x2048_2_0_n_n_0_2_12048.start (ix3 n c q) idx 1 + gather_S100x2048_S4096x32x1_S4096x32x2048_2_0_n_n_0_2_12048.batchCoord (ix3 n c q) 1 + gather_S100x2048_S4096x32x1_S4096x32x2048_2_0_n_n_0_2_12048.offCoord (ix3 n c q) 1 = q.val
    rw [GatherDims.batchCoord_eq_zero _ _ _ hb1]
    unfold GatherDims.start GatherDims.offCoord
    rw [dif_neg hm1, dif_pos hk1, Nat.add_zero, Nat.zero_add]
    rfl

/-! ## The level index -/

/-- The clipped level index, as a function of the feature array. -/
abbrev idxOf (x0 : (⟨S4096x32, .f32⟩ : BufTy).Contents (Elt Ideal)) : S4096x32.Idx → BitVec 32 := val_main_v14 (F := Ideal) x0

/-- Every level index reads, signed, in [0, 99]. -/
theorem idx_range (x0 : (⟨S4096x32, .f32⟩ : BufTy).Contents (Elt Ideal)) (i : S4096x32.Idx) : 0 ≤ (idxOf x0 i).toInt ∧ (idxOf x0 i).toInt ≤ 99 := by
  show 0 ≤ (val_main_v14 (F := Ideal) x0 i : BitVec 32).toInt ∧ (val_main_v14 (F := Ideal) x0 i : BitVec 32).toInt ≤ 99
  rw [val_main_v14_apply, val_main_call0_v4_apply, val_main_call0_v3_apply, val_main_c_3_apply, val_main_call0_v2_apply,
    val_main_call0_v1_apply, val_main_call0_v0_apply, val_main_c_apply]
  exact Cert.IndexWord.clip_range _

/-- The index the gather is handed — after jnp's negative-index wrap — is the level index itself. -/
theorem wrapped_eq (x0 : (⟨S4096x32, .f32⟩ : BufTy).Contents (Elt Ideal)) (i : S4096x32.Idx) : val_main_v19 (F := Ideal) x0 i = idxOf x0 i := by
  rw [val_main_v19_apply, val_main_v16_apply, val_main_v15_apply, val_main_c_4_apply, val_main_v18_apply, val_main_v17_apply,
    val_main_c_5_apply]
  exact Cert.IndexWord.wrap_id _ (idx_range x0 i).1

/-! ## The result at an element -/

/-- THE REFERENCE AT (n, d): the sign of the sum over the channels of the value table's row at the level index times the
    position table. -/
theorem ref_apply (x0 : (⟨S4096x32, .f32⟩ : BufTy).Contents (Elt Ideal)) (x1 : (⟨S100x2048, .f32⟩ : BufTy).Contents (Elt Ideal)) (x2 : (⟨S32x2048, .f32⟩ : BufTy).Contents (Elt Ideal)) (n : Fin 4096) (d : Fin 2048) :
    val_main_v29 (F := Ideal) x0 x1 x2 (ix2 n d)
      = Cert.Spec.sgn (∑ c : Fin 32, x1 (ix2 (Cert.IndexWord.row (idxOf x0 (ix2 n c))) d) * x2 (ix2 c d)) := by
  rw [val_main_v29_apply, val_main_v28_apply, val_main_v27_apply, val_main_v26_apply, val_main_cst_7_apply,
    val_main_call1_v0_apply, val_main_cst_8_apply, val_main_call1_v1_apply, val_main_cst_9_apply, val_main_v25_apply,
    val_main_cst_6_apply]
  show Cert.Spec.sgn (_ : EReal) = Cert.Spec.sgn _
  refine congrArg Cert.Spec.sgn ?_
  show Ideal.ofBits .f32 0x00000000#32 + _ = _
  rw [Ideal.ofBits_zero_f32, zero_add]
  refine Finset.sum_congr rfl fun c _ => ?_
  have e3 : idx_main_v25 (ix2 n d) c = ix3 n c d := funext fun a => Fin.ext (by
    match a with | ⟨0, _⟩ => rfl | ⟨1, _⟩ => rfl | ⟨2, _⟩ => rfl)
  have e20 : idx_main_v20 (ix3 n c (0 : Fin 1)) = ix2 n c := funext fun a => Fin.ext (by
    match a with | ⟨0, _⟩ => rfl | ⟨1, _⟩ => rfl)
  have e22 : idx_main_v22 (idx_main_v23 (ix3 n c d)) = ix2 c d := funext fun a => Fin.ext (by
    match a with | ⟨0, _⟩ => rfl | ⟨1, _⟩ => rfl)
  rw [e3, val_main_v24_apply, val_main_v23_apply, val_main_v22_apply, e22]
  refine congrArg (· * x2 (ix2 c d)) ?_
  unfold val_main_v21
  rw [gather_apply, val_main_v20_apply, e20, wrapped_eq]

/-! ## The whole result as one function of the arguments -/

/-- What both programs compute: element (n, d) is the sign of the sum, over the 32 channels `c`, of the value table at
    (level index of (n, c), d) times the position table at (c, d). -/
def G (x0 : (⟨S4096x32, .f32⟩ : BufTy).Contents (Elt Ideal)) (x1 : (⟨S100x2048, .f32⟩ : BufTy).Contents (Elt Ideal)) (x2 : (⟨S32x2048, .f32⟩ : BufTy).Contents (Elt Ideal)) : S4096x2048.Idx → EReal := fun i =>
  Cert.Spec.sgn (∑ c : Fin 32, x1 (ix2 (Cert.IndexWord.row (idxOf x0 (ix2 (i 0) c))) (i 1)) * x2 (ix2 c (i 1)))

/-- The reference's result is that function. -/
theorem ref_eq_G (x0 : (⟨S4096x32, .f32⟩ : BufTy).Contents (Elt Ideal)) (x1 : (⟨S100x2048, .f32⟩ : BufTy).Contents (Elt Ideal)) (x2 : (⟨S32x2048, .f32⟩ : BufTy).Contents (Elt Ideal)) : val_main_v29 (F := Ideal) x0 x1 x2 = G x0 x1 x2 := by
  funext i
  obtain ⟨n, d, rfl⟩ : ∃ (n : Fin 4096) (d : Fin 2048), i = ix2 n d := ⟨i 0, i 1, eq_ix2 i⟩
  exact ref_apply x0 x1 x2 n d

end Cert.ReferenceIdeal.RefRead

end
-- ==== Proof.HostIdx.lean ====
/-
  What the kernel's three input windows stage: the arrays the host wrote before the region.

  The index window's array is the clipped level index of the feature array — operation for operation the chain the
  reference computes, so it is the reference's own index function (carried whole, never opened). The two table windows'
  arrays are the value and position tables narrowed to bf16, which on the ideal values is the table itself.
-/
import proofs.«177099_j38809324486986_1_alg».proof.Proof.Gen.KernelIdeal.Frame
import proofs.«177099_j38809324486986_1_alg».proof.Proof.RefRead
import Idealize.ShloMosaic.Lib.StableHlo.Run

noncomputable section

namespace Cert.KernelIdeal.HostIdx

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

set_option maxRecDepth 16384 in
/-- The index window's array is the level index of the feature array: the host operations before the region, read back
    one by one, are the reference's stages with the same operands — the two chains are one term, spelt in the two
    programs' vocabularies. -/
theorem V_idx (c : Dev nD) :
    (V m c main_v14 : S4096x32.Idx → BitVec 32) = Cert.ReferenceIdeal.RefRead.idxOf (m ((c : Thread nD τ).loc main_arg0)) := by
  dsimp only [V]
  simp only [hostOps0, hostOps0_1, hostOps0_2, List.flatten_cons, List.flatten_nil, List.append_nil, List.cons_append, List.nil_append]
  after_results_simp
  simp only [cast_eq, id]
  unfold Cert.ReferenceIdeal.RefRead.idxOf Cert.ReferenceIdeal.Read.val_main_v14 Cert.ReferenceIdeal.Read.val_main_call0_v4 Cert.ReferenceIdeal.Read.val_main_call0_v3 Cert.ReferenceIdeal.Read.val_main_c_3 Cert.ReferenceIdeal.Read.val_main_call0_v2 Cert.ReferenceIdeal.Read.val_main_call0_v1 Cert.ReferenceIdeal.Read.val_main_call0_v0 Cert.ReferenceIdeal.Read.val_main_c Cert.ReferenceIdeal.Read.val_main_v13 Cert.ReferenceIdeal.Read.val_main_v12 Cert.ReferenceIdeal.Read.val_main_v11 Cert.ReferenceIdeal.Read.val_main_cst_2 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_cst_1 Cert.ReferenceIdeal.Read.val_main_v4 Cert.ReferenceIdeal.Read.val_main_v3 Cert.ReferenceIdeal.Read.val_main_v2 Cert.ReferenceIdeal.Read.val_main_cst_0 Cert.ReferenceIdeal.Read.val_main_v1 Cert.ReferenceIdeal.Read.val_main_v0 Cert.ReferenceIdeal.Read.val_main_cst
  simp only [id]

/-- The value window's array is the value table (narrowed to bf16: the identity on the ideal values). -/
theorem V_val (c : Dev nD) (i : S100x2048.Idx) :
    (V m c main_v15 : S100x2048.Idx → EReal) i = (m ((c : Thread nD τ).loc main_arg1) : S100x2048.Idx → EReal) i := by
  dsimp only [V]
  simp only [hostOps0, hostOps0_1, hostOps0_2, List.flatten_cons, List.flatten_nil, List.append_nil, List.cons_append, List.nil_append]
  after_results_simp
  rfl

/-- The position window's array is the position table (narrowed to bf16: the identity on the ideal values). -/
theorem V_pos (c : Dev nD) (i : S32x2048.Idx) :
    (V m c main_v16 : S32x2048.Idx → EReal) i = (m ((c : Thread nD τ).loc main_arg2) : S32x2048.Idx → EReal) i := by
  dsimp only [V]
  simp only [hostOps0, hostOps0_1, hostOps0_2, List.flatten_cons, List.flatten_nil, List.append_nil, List.cons_append, List.nil_append]
  after_results_simp
  rfl

end Cert.KernelIdeal.HostIdx

end
-- ==== Proof.Final.lean ====
/-
  From blocks to the array: the kernel's result is `G` of the argument arrays.

  The grid has four points; point `t` stages rows [1024·t, 1024·t + 1024) of the index array and both whole tables, and
  writes back rows [1024·t, 1024·t + 1024) of the result. So element (p, q) of what point `t` writes back is element
  (1024·t + p, q) of `G`: the body's value there (the sign of the channel sum) is `G`'s, the block's index row `p`
  being the array's row 1024·t + p. The four blocks tile the result, so after the run the result array is `G`.
-/
import proofs.«177099_j38809324486986_1_alg».proof.Proof.Body
import proofs.«177099_j38809324486986_1_alg».proof.Proof.Point
import proofs.«177099_j38809324486986_1_alg».proof.Proof.HostIdx

noncomputable section

open scoped BigOperators

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx
open Cert.ReferenceIdeal.RefRead (G idxOf)

variable (m : (ℓ : Loc nD τ sig) → Buf (Elt Ideal) ℓ) (ρ : Dev nD → PrngReg)

/-! ## The index maps over the grid -/

/-- The printed index maps, decided over the four points: the index window moves with the output window along the rows,
    the tables' windows stay at block (0, 0), and the output's row-block index is at most 3. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 3 :=
  (by decide +kernel : ∀ t : Fin grid0.N, _)

/-- Every row block of the result is some point's. -/
theorem idx_onto : ∀ q0 : Fin 4, ∃ t : Fin cfg0.N, win0_3.index t = ![q0.val, 0] :=
  (by decide +kernel : ∀ q0 : Fin 4, ∃ t : Fin grid0.N, win0_3.index t = ![q0.val, 0])

/-! ## The input blocks, read off the arrays -/

/-- Row `p` of point `t`'s index block is row `n = 1024·(block index) + p` of the index array. -/
theorem blk_idx (c : Dev nD) (t : Fin cfg0.N) (p : Fin 1024) (cc : Fin 32) (n : Fin 4096)
    (hn : n.val = win0_3.index t (0 : Fin 2) * 1024 + p.val) :
    (iblk m c 0 t : Vec Ideal S1024x32 .i32) (ix2 p cc) = (V m c main_v14 : S4096x32.Idx → BitVec 32) (ix2 n cc) := by
  obtain ⟨e00, e01, -⟩ := idx_facts t
  show V m c main_v14 (((cfg0.win 0).blk t).view.emb (ix2 p cc)) = V m c main_v14 (ix2 n cc)
  refine congrArg (V m c main_v14) (funext fun a => Fin.ext ?_)
  match a with
  | ⟨0, _⟩ => show win0_0.index t (0 : Fin 2) * 1024 + 1 * p.val = n.val; omega
  | ⟨1, _⟩ => show win0_0.index t (1 : Fin 2) * 32 + 1 * cc.val = cc.val; omega

/-- The value window's block is the whole value-table array. -/
theorem blk_val (c : Dev nD) (t : Fin cfg0.N) (k : Fin 100) (q : Fin 2048) :
    (iblk m c 1 t : Vec Ideal S100x2048 .bf16) (ix2 k q) = (V m c main_v15 : S100x2048.Idx → EReal) (ix2 k q) := by
  obtain ⟨-, -, e10, e11, -⟩ := idx_facts t
  show V m c main_v15 (((cfg0.win 1).blk t).view.emb (ix2 k q)) = V m c main_v15 (ix2 k q)
  refine congrArg (V m c main_v15) (funext fun a => Fin.ext ?_)
  match a with
  | ⟨0, _⟩ => show win0_1.index t (0 : Fin 2) * 100 + 1 * k.val = k.val; omega
  | ⟨1, _⟩ => show win0_1.index t (1 : Fin 2) * 2048 + 1 * q.val = q.val; omega

/-- The position window's block is the whole position-table array. -/
theorem blk_pos (c : Dev nD) (t : Fin cfg0.N) (cc : Fin 32) (q : Fin 2048) :
    (iblk m c 2 t : Vec Ideal S32x2048 .bf16) (ix2 cc q) = (V m c main_v16 : S32x2048.Idx → EReal) (ix2 cc q) := by
  obtain ⟨-, -, -, -, e20, e21, -⟩ := idx_facts t
  show V m c main_v16 (((cfg0.win 2).blk t).view.emb (ix2 cc q)) = V m c main_v16 (ix2 cc q)
  refine congrArg (V m c main_v16) (funext fun a => Fin.ext ?_)
  match a with
  | ⟨0, _⟩ => show win0_2.index t (0 : Fin 2) * 32 + 1 * cc.val = cc.val; omega
  | ⟨1, _⟩ => show win0_2.index t (1 : Fin 2) * 2048 + 1 * q.val = q.val; omega

/-! ## What a point writes back -/

/-- `G` at an index whose coordinates are `n` and `d`. -/
theorem G_at (x0 : (⟨Cert.ReferenceIdeal.S4096x32, .f32⟩ : BufTy).Contents (Elt Ideal)) (x1 : (⟨Cert.ReferenceIdeal.S100x2048, .f32⟩ : BufTy).Contents (Elt Ideal))
    (x2 : (⟨Cert.ReferenceIdeal.S32x2048, .f32⟩ : BufTy).Contents (Elt Ideal)) (i : S4096x2048.Idx) (n : Fin 4096) (d : Fin 2048)
    (hn : (i 0).val = n.val) (hd : (i 1).val = d.val) :
    G x0 x1 x2 i = Cert.Spec.sgn (∑ cc : Fin 32, x1 (ix2 (Cert.IndexWord.row (idxOf x0 (ix2 n cc))) d) * x2 (ix2 cc d)) := by
  have e : i = ix2 n d := funext fun a => Fin.ext (by match a with | ⟨0, _⟩ => exact hn | ⟨1, _⟩ => exact hd)
  subst e
  rfl

/-- WHAT POINT `t` WRITES BACK is block `t` of `G` of the argument arrays. -/
theorem flushed_eq (c : Dev nD) (t : Fin cfg0.N) :
    (dats m 0 c).flushed 3 t = ((cfg0.win 3).blk t).view.read (Elt Ideal) (G (m ((c : Thread nD τ).loc main_arg0)) (m ((c : Thread nD τ).loc main_arg1)) (m ((c : Thread nD τ).loc main_arg2))) := by
  rw [Value.flushed3_A]
  funext j
  show out0_A_3 (F := Ideal) c (grid0.coords t) (ms0_0 t) (hs0_0 t) (ms0_1 t) (hs0_1 t) (ms0_2 t) (hs0_2 t) (ms0_3 t) (hs0_3 t)
      (iblk m c 0 t) (iblk m c 1 t) (iblk m c 2 t) j
    = G (m ((c : Thread nD τ).loc main_arg0)) (m ((c : Thread nD τ).loc main_arg1)) (m ((c : Thread nD τ).loc main_arg2)) (((cfg0.win 3).blk t).view.emb j)
  obtain ⟨p, q, rfl⟩ : ∃ (p : Fin 1024) (q : Fin 2048), j = ix2 p q := ⟨j 0, j 1, eq_ix2 j⟩
  obtain ⟨e00, e01, e10, e11, e20, e21, e31, e3le⟩ := idx_facts t
  have hnlt : win0_3.index t (0 : Fin 2) * 1024 + p.val < 4096 := by have := p.isLt; omega
  rw [Body.out_apply, G_at _ _ _ _ ⟨_, hnlt⟩ q
    (by show win0_3.index t (0 : Fin 2) * 1024 + 1 * p.val = win0_3.index t (0 : Fin 2) * 1024 + p.val; omega)
    (by show win0_3.index t (1 : Fin 2) * 2048 + 1 * q.val = q.val; omega)]
  refine congrArg Cert.Spec.sgn ?_
  exact Point.sum_terms (idxOf (m ((c : Thread nD τ).loc main_arg0))) (m ((c : Thread nD τ).loc main_arg1)) (m ((c : Thread nD τ).loc main_arg2)) (Cert.ReferenceIdeal.RefRead.idx_range _)
    (iblk m c 0 t) (iblk m c 1 t) (Body.posOf (iblk m c 2 t)) p q ⟨_, hnlt⟩
    (fun cc => (blk_idx m c t p cc ⟨_, hnlt⟩ rfl).trans (congrFun (HostIdx.V_idx m c) _))
    (fun k => (blk_val m c t k q).trans (HostIdx.V_val m c _))
    (fun cc => (blk_pos m c t cc q).trans (HostIdx.V_pos m c _))

/-! ## The cover, and the array after the run -/

/-- An index of the result is in point `t`'s block iff each coordinate is in the block's range on its axis. -/
theorem mem_blk (t : Fin cfg0.N) (i : S4096x2048.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v17).slice (win0_3.rect t)).set ↔ _
  rw [View.set_slice_whole, Rect.mem_set_unit]
  exact Iff.rfl

/-- Every index of the result is in some point's block: row `r` in the block of point `r / 1024`. -/
theorem cover (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- THE RESULT ARRAY after the run is `G` of the argument arrays. -/
theorem final (c : Dev nD) : (dats m 0 c).arrAt 3 cfg0.N = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: every weakly fair execution ends with the result array at `G` of the arguments, the arguments
    unchanged. -/
theorem run : θ_run defs (onTc (τ := τ) (main (F := Ideal))) ⟨m, fun _ => 0, ρ⟩ fun r => ∀ c : Dev nD,
      r.2.mem ((c : Thread nD τ).loc main_v17) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.lean ====
/-
  A hyperdimensional embedding: level-quantise, gather, bind, bundle, sign.

  Both programs take a feature array `feat` [4096, 32], a value table `val` [100, 2048] and a position table
  `pos` [32, 2048]. Each feature is normalised per channel to [0, 1], scaled by 99, converted to an integer and clipped
  to a LEVEL INDEX idx (n, c) in [0, 99] — the same host operations in both programs, so one function `idxOf feat`.
  The result is

      G (n, d) = sgn (∑ c < 32, val (idx (n, c), d) · pos (c, d)),      sgn x = −1 if x < 0, +1 otherwise.

  The reference gathers the rows `val[idx]`, multiplies by `pos` and sums over the channel axis. The kernel cannot
  gather; per channel it builds the one-hot row [idx (n, c) = k] over the 100 levels and multiplies it with `val` on
  the matrix unit, which selects the same row, then accumulates the 32 channels one after the other into the output
  block, 1024 rows of the result per grid point. On the extended reals the two are equal by three facts: 0 · x = 0 and
  1 · x = x (the one-hot sum selects), and addition is commutative and associative (the accumulation is the sum).
  None needs a finite input, so the precondition is never opened.

  The frames are the generated ones (the reference's is its generated run with the result dropped); the kernel's
  idealization rewrote nothing, so `preserves` is trivial.
-/
import proofs.«177099_j38809324486986_1_alg».proof.Defs
import proofs.«177099_j38809324486986_1_alg».proof.Proof.Gen.Kernel
import proofs.«177099_j38809324486986_1_alg».proof.Proof.Gen.Kernel.Skeleton
import proofs.«177099_j38809324486986_1_alg».proof.Proof.Gen.Kernel.Launch
import proofs.«177099_j38809324486986_1_alg».proof.Proof.Gen.Kernel.Points
import proofs.«177099_j38809324486986_1_alg».proof.Proof.Gen.Kernel.Frame
import proofs.«177099_j38809324486986_1_alg».proof.Proof.Gen.KernelIdeal
import proofs.«177099_j38809324486986_1_alg».proof.Proof.Gen.KernelIdeal.Skeleton
import proofs.«177099_j38809324486986_1_alg».proof.Proof.Gen.KernelIdeal.Launch
import proofs.«177099_j38809324486986_1_alg».proof.Proof.Gen.KernelIdeal.Points
import proofs.«177099_j38809324486986_1_alg».proof.Proof.Gen.KernelIdeal.Frame
import proofs.«177099_j38809324486986_1_alg».proof.Proof.Gen.ReferenceIdeal
import proofs.«177099_j38809324486986_1_alg».proof.Proof.Gen.Pre_finite_inputs
import proofs.«177099_j38809324486986_1_alg».proof.Proof.Gen.KernelIdeal.Value
import proofs.«177099_j38809324486986_1_alg».proof.Proof.Gen.ReferenceIdeal.Run
import proofs.«177099_j38809324486986_1_alg».proof.Proof.Gen.ReferenceIdeal.Read
import proofs.«177099_j38809324486986_1_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at `G` of its arguments (the blocks, tiled), the reference's at its last stage, which
    is `G` of its arguments index by index; the arguments agree. -/
theorem algebraic : Cert.algebraic_KernelIdeal_ReferenceIdeal := by
  intro m ρ m' ρ' _ hagree
  refine ⟨fun c => Cert.ReferenceIdeal.RefRead.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefRead.ref_eq_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
